-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1x512 : Shape := ⟨3, ![10000, 1, 512]⟩
abbrev S10000x10000 : Shape := ⟨2, ![10000, 10000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S10000x1x512 : S_.BroadcastsInDim S10000x1x512 (![] : Fin 0 → Fin S10000x1x512.rank)
  reducesTo_S10000x1x512_S_d0_1_2 : S10000x1x512.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x64 .f32) (main_arg5 : FVec F S64 .f32) (main_arg6 : FVec F S64x1 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_v33

def fn {F : FTy → Type} [FloatOps F] (main_arg0 : FVec F S10000x1x512 .f32) (main_arg1 : FVec F S10000x10000 .f32) (main_arg2 : FVec F S512x256 .f32) (main_arg3 : FVec F S256 .f32) (main_arg4 : FVec F S256x64 .f32) (main_arg5 : FVec F S64 .f32) (main_arg6 : FVec F S64x1 .f32) (main_arg7 : FVec F S1 .f32) : IVec S_ 1 :=
  let main_v0 : FVec F S10000x1x512 .f32 := Host.absf main_arg0
  let main_cst : FVec F S_ .f32 := constant S_ .f32 0x7F800000#32
  let main_v1 : FVec F S10000x1x512 .f32 := broadcastInDim S10000x1x512 ![] bcast_S_S10000x1x512 main_cst
  let main_v2 : IVec S10000x1x512 1 := cmpf .olt main_v0 main_v1
  let main_c : IVec S_ 1 := constantI S_ 1 1#1
  let main_v3 : IVec S_ 1 := (fun x v => Host.reduce IntOp.andi x v reducesTo_S10000x1x512_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S10000x1x512 : Shape := ⟨3, ![10000, 1, 512]⟩
abbrev S10000x10000 : Shape := ⟨2, ![10000, 10000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S10000x512 : Shape := ⟨2, ![10000, 512]⟩
abbrev S_ : Shape := ⟨0, ![]⟩
abbrev S1x256 : Shape := ⟨2, ![1, 256]⟩
abbrev S10000x256 : Shape := ⟨2, ![10000, 256]⟩
abbrev S1000x512 : Shape := ⟨2, ![1000, 512]⟩
abbrev S1000x256 : Shape := ⟨2, ![1000, 256]⟩
abbrev S200x10000 : Shape := ⟨2, ![200, 10000]⟩
abbrev S200x256 : Shape := ⟨2, ![200, 256]⟩
abbrev S1x64 : Shape := ⟨2, ![1, 64]⟩
abbrev S10000x64 : Shape := ⟨2, ![10000, 64]⟩
abbrev S1000x64 : Shape := ⟨2, ![1000, 64]⟩
abbrev S200x64 : Shape := ⟨2, ![200, 64]⟩
abbrev S10000x1 : Shape := ⟨2, ![10000, 1]⟩
abbrev S1x1 : Shape := ⟨2, ![1, 1]⟩

abbrev nBuf : Space → Nat
  | .hbm => 25
  | .vmem => 24
  | .smem => 0
  | _ => 0

abbrev bufTy : (tb : Table) → Fin (tcTables nBuf tb) → BufTy
  | .hbm, ⟨0, _⟩ => ⟨S10000x1x512, .f32⟩
  | .hbm, ⟨1, _⟩ => ⟨S10000x10000, .f32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S10000x512, .f32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S64, .f32⟩
  | .hbm, ⟨13, _⟩ => ⟨S1x256, .f32⟩
  | .hbm, ⟨14, _⟩ => ⟨S10000x256, .bf16⟩
  | .hbm, ⟨15, _⟩ => ⟨S1x256, .f32⟩
  | .hbm, ⟨16, _⟩ => ⟨S10000x256, .bf16⟩
  | .hbm, ⟨17, _⟩ => ⟨S1x64, .f32⟩
  | .hbm, ⟨18, _⟩ => ⟨S10000x64, .bf16⟩
  | .hbm, ⟨19, _⟩ => ⟨S1x64, .f32⟩
  | .hbm, ⟨20, _⟩ => ⟨S10000x64, .f32⟩
  | .hbm, ⟨21, _⟩ => ⟨S10000x1, .f32⟩
  | .hbm, ⟨22, _⟩ => ⟨S1x1, .f32⟩
  | .hbm, ⟨23, _⟩ => ⟨S10000x1, .f32⟩
  | .hbm, ⟨24, _⟩ => ⟨S10000x1, .f32⟩
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S1x256, .f32⟩
  | .local _ .vmem, ⟨4, _⟩ => ⟨S1000x256, .bf16⟩
  | .local _ .vmem, ⟨5, _⟩ => ⟨S1000x256, .bf16⟩
  | .local _ .vmem, ⟨6, _⟩ => ⟨S200x10000, .f32⟩
  | .local _ .vmem, ⟨7, _⟩ => ⟨S200x10000, .f32⟩
  | .local _ .vmem, ⟨8, _⟩ => ⟨S10000x256, .bf16⟩
  | .local _ .vmem, ⟨9, _⟩ => ⟨S1x256, .f32⟩
  | .local _ .vmem, ⟨10, _⟩ => ⟨S200x256, .bf16⟩
  | .local _ .vmem, ⟨11, _⟩ => ⟨S200x256, .bf16⟩
  | .local _ .vmem, ⟨12, _⟩ => ⟨S1000x256, .bf16⟩
  | .local _ .vmem, ⟨13, _⟩ => ⟨S1000x256, .bf16⟩
  | .local _ .vmem, ⟨14, _⟩ => ⟨S256x64, .f32⟩
  | .local _ .vmem, ⟨15, _⟩ => ⟨S1x64, .f32⟩
  | .local _ .vmem, ⟨16, _⟩ => ⟨S1000x64, .bf16⟩
  | .local _ .vmem, ⟨17, _⟩ => ⟨S1000x64, .bf16⟩
  | .local _ .vmem, ⟨18, _⟩ => ⟨S200x10000, .f32⟩
  | .local _ .vmem, ⟨19, _⟩ => ⟨S200x10000, .f32⟩
  | .local _ .vmem, ⟨20, _⟩ => ⟨S10000x64, .bf16⟩
  | .local _ .vmem, ⟨21, _⟩ => ⟨S1x64, .f32⟩
  | .local _ .vmem, ⟨22, _⟩ => ⟨S200x64, .f32⟩
  | .local _ .vmem, ⟨23, _⟩ => ⟨S200x64, .f32⟩
  | _, _ => ⟨S10000x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S200x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S10000x1x512_S10000x512 : S10000x1x512.ShapeCasts S10000x512
  bcast_S_S256 : S_.BroadcastsInDim S256 (![] : Fin 0 → Fin S256.rank)
  bcast_S_S64 : S_.BroadcastsInDim S64 (![] : Fin 0 → Fin S64.rank)
  shapeCasts_S256_S1x256 : S256.ShapeCasts S1x256
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  inb_S200x10000_S200x10000_0_0 : ∀ a, (![0, 0] : Fin 2 → Nat) a + S200x10000.size a ≤ S200x10000.size a
  h_S200x10000 : 0 < S200x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  broadcasts_S1x256_S200x256 : S1x256.Broadcasts S200x256
  inb_S200x256_S200x256_0_0 : ∀ a, (![0, 0] : Fin 2 → Nat) a + S200x256.size a ≤ S200x256.size a
  h_S200x256 : 0 < S200x256.numel
  packedbf16_S200x256_S200x256_0_0 : (Rect.unit (s := S200x256) ![0, 0] S200x256.size inb_S200x256_S200x256_0_0).PackedRows (EltTy.packing .bf16)
  shapeCasts_S64_S1x64 : S64.ShapeCasts S1x64
  shapeCasts_S1000x256_S1000x256 : S1000x256.ShapeCasts S1000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  packedbf16_S1000x64_S1000x64_0_0 : (Rect.unit (s := S1000x64) ![0, 0] S1000x64.size inb_S1000x64_S1000x64_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S200x64 : S1x64.Broadcasts S200x64
  inb_S200x64_S200x64_0_0 : ∀ a, (![0, 0] : Fin 2 → Nat) a + S200x64.size a ≤ S200x64.size a
  h_S200x64 : 0 < S200x64.numel
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S1000x512_S512x256_S1000x256_1_0_0_1_n_n_wf : DotDims.WF S1000x512 S512x256 S1000x256 [1] [0] [0] [1] [] []
  dot_S200x10000_S10000x256_S200x256_1_0_0_1_n_n_wf : DotDims.WF S200x10000 S10000x256 S200x256 [1] [0] [0] [1] [] []
  dot_S1000x256_S256x64_S1000x64_1_0_0_1_n_n_wf : DotDims.WF S1000x256 S256x64 S1000x64 [1] [0] [0] [1] [] []
  dot_S200x10000_S10000x64_S200x64_1_0_0_1_n_n_wf : DotDims.WF S200x10000 S10000x64 S200x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .bf16 = 32 ∨ (Rect.block (s := S10000x256) S1000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x256.size a ≤ S10000x256.size a
  hwx1_3 : ∀ i : grid1.Coords, EltTy.bits .bf16 = 32 ∨ (Rect.block (s := S10000x256) S200x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S10000x256.size a
  hwx2_0 : ∀ i : grid2.Coords, EltTy.bits .bf16 = 32 ∨ (Rect.block (s := S10000x256) S1000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x64.size a ≤ S10000x64.size a
  hwx2_3 : ∀ i : grid2.Coords, EltTy.bits .bf16 = 32 ∨ (Rect.block (s := S10000x64) S1000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .bf16 = 32 ∨ (Rect.block (s := S10000x64) S10000x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x64.size a ≤ S10000x64.size a
  hwx3_3 : ∀ i : grid3.Coords, EltTy.bits .f32 = 32 ∨ (Rect.block (s := S10000x64) S200x64.size (cc3_transform_3 i) (hinb3_3 i)).WholeWords (EltTy.packing .f32)

variable [Facts₀]

def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S1000x256_S256x64_S1000x64_1_0_0_1_n_n : DotDims S1000x256 S256x64 S1000x64 where
  lhsContracting := [1]
  rhsContracting := [0]
  lhsNonContracting := [0]
  rhsNonContracting := [1]
  lhsBatch := []
  rhsBatch := []
  wf := dot_S1000x256_S256x64_S1000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S200x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v9) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v10) S200x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x1x512 : Shape := ⟨3, ![10000, 1, 512]⟩
abbrev S10000x10000 : Shape := ⟨2, ![10000, 10000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S10000x512 : Shape := ⟨2, ![10000, 512]⟩
abbrev S10000x256 : Shape := ⟨2, ![10000, 256]⟩
abbrev S1x256 : Shape := ⟨2, ![1, 256]⟩
abbrev S_ : Shape := ⟨0, ![]⟩
abbrev S10000x64 : Shape := ⟨2, ![10000, 64]⟩
abbrev S1x64 : Shape := ⟨2, ![1, 64]⟩
abbrev S10000x1 : Shape := ⟨2, ![10000, 1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S10000x1x512, .f32⟩
  | .hbm, ⟨1, _⟩ => ⟨S10000x10000, .f32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S10000x512, .f32⟩
  | .hbm, ⟨9, _⟩ => ⟨S10000x256, .f32⟩
  | .hbm, ⟨10, _⟩ => ⟨S10000x256, .f32⟩
  | .hbm, ⟨11, _⟩ => ⟨S1x256, .f32⟩
  | .hbm, ⟨12, _⟩ => ⟨S10000x256, .f32⟩
  | .hbm, ⟨13, _⟩ => ⟨S10000x256, .f32⟩
  | .hbm, ⟨14, _⟩ => ⟨S_, .f32⟩
  | .hbm, ⟨15, _⟩ => ⟨S10000x256, .f32⟩
  | .hbm, ⟨16, _⟩ => ⟨S10000x256, .f32⟩
  | .hbm, ⟨17, _⟩ => ⟨S10000x64, .f32⟩
  | .hbm, ⟨18, _⟩ => ⟨S10000x64, .f32⟩
  | .hbm, ⟨19, _⟩ => ⟨S1x64, .f32⟩
  | .hbm, ⟨20, _⟩ => ⟨S10000x64, .f32⟩
  | .hbm, ⟨21, _⟩ => ⟨S10000x64, .f32⟩
  | .hbm, ⟨22, _⟩ => ⟨S10000x1, .f32⟩
  | .hbm, ⟨23, _⟩ => ⟨S1x1, .f32⟩
  | .hbm, ⟨24, _⟩ => ⟨S10000x1, .f32⟩
  | .hbm, ⟨25, _⟩ => ⟨S10000x1, .f32⟩
  | _, _ => ⟨S10000x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  shapeCasts_S10000x1x512_S10000x512 : S10000x1x512.ShapeCasts S10000x512
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x512_S512x256_S10000x256_1_0_0_1_n_n_wf : DotDims.WF S10000x512 S512x256 S10000x256 [1] [0] [0] [1] [] []
  dot_S10000x10000_S10000x256_S10000x256_1_0_0_1_n_n_wf : DotDims.WF S10000x10000 S10000x256 S10000x256 [1] [0] [0] [1] [] []
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []
  dot_S10000x64_S64x1_S10000x1_1_0_0_1_n_n_wf : DotDims.WF S10000x64 S64x1 S10000x1 [1] [0] [0] [1] [] []

variable [Facts₀]

def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

class Facts : Prop extends Facts₀ where

variable [Facts]
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.Region0.lean ====
/-
  First matrix product of the program: the grid's ten points each take a block of 1000 rows of the reshaped
  input, the whole weight matrix and the one-row bias, and write back the block's rows of
  (rows x weights) + bias. The blocks tile the 10000 rows, so the output array after the region is that
  function of the three arrays the region found, whatever they were.
-/
import proofs.«158433_j21706764714291_1_alg».proof.Proof.Gen.KernelIdeal.Frame
import proofs.«158433_j21706764714291_1_alg».proof.Proof.LibPlainDot
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx Cert.PlainDot
open Idealize.ShloMosaic.Pipeline (Dat)

variable (V : (c : Dev nD) → (b : Ref sig .tc) → Buf (Elt Ideal) ((c : Thread nD τ).loc b))

/-- The three arrays the region reads, as it finds them, at their literal types. -/
abbrev rowsArr (c : Dev nD) : S10000x512.Idx → EReal := V c main_v0
abbrev weightArr (c : Dev nD) : S512x256.Idx → EReal := V c main_arg2
abbrev biasArr (c : Dev nD) : S1x256.Idx → EReal := V c main_v3

theorem origin_zero : (![0, 0] : Fin 2 → Nat) = fun _ => 0 := funext fun a => by fin_cases a <;> rfl

/-- The printed contraction record is the plain rows-by-columns one. -/
theorem dims_eq : dot_S1000x512_S512x256_S1000x256_1_0_0_1_n_n = DotDims.plain 1000 512 256 := rfl

/-- The body's stored value: every format change is the identity on the extended reals, so it is the block's
    rows times the weights plus the bias row. -/
theorem stored_eq (x0 : Vec Ideal S1000x512 .f32) (x1 : Vec Ideal S512x256 .f32) (x2 : Vec Ideal S1x256 .f32) :
    k0_pay1 (F := Ideal) x0 x1 x2 = affine x0 x1 x2 := by
  unfold k0_pay1
  dsimp only
  rw [shapeCast_self, shapeCast_self, dims_eq]
  exact matmul_add_row_eq none x0 x1 x2 _

/-- Where each window's block sits at point `t`: the input rows and the output rows move together with the
    point, everything else stays at the origin. -/
theorem block_origins : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `affine` of the three arrays the region found. -/
theorem written_back (c : Dev nD) (t : Fin cfg0.N) :
    (dat0 V c).flushed 3 t
      = ((cfg0.win 3).blk t).view.read (Elt Ideal) (affine (rowsArr V c) (weightArr V c) (biasArr V c)) := by
  show (cfg0.win 3).cut (grid0.coords t) ((dat0 V c).after 3 t) = _
  rw [after0_3]
  unfold out0_3
  rw [View.canon_unit_zero origin_zero]
  simp only [View.ld_unit_zero (S := S1000x512) origin_zero, View.ld_unit_zero (S := S512x256) origin_zero,
    View.ld_unit_zero (S := S1x256) origin_zero]
  rw [stored_eq]
  obtain ⟨a0, a1, b0, b1, c0, c1, d0, d1⟩ := block_origins t
  refine funext fun (j : S1000x256.Idx) => ?_
  obtain ⟨p, q, rfl⟩ : ∃ (p : Fin 1000) (q : Fin 256), j = ix2 p q := ⟨j 0, j 1, eq_ix2 j⟩
  show (∑ k : Fin 512, rowsArr V c (((cfg0.win 0).blk t).view.emb (ix2 p k)) * weightArr V c (((cfg0.win 1).blk t).view.emb (ix2 k q)))
        + biasArr V c (((cfg0.win 2).blk t).view.emb (ix2 (0 : Fin 1) q))
      = (∑ k : Fin 512, rowsArr V c (ix2 ((((cfg0.win 3).blk t).view.emb (ix2 p q)) 0) k)
            * weightArr V c (ix2 k ((((cfg0.win 3).blk t).view.emb (ix2 p q)) 1)))
        + biasArr V c (ix2 (0 : Fin 1) ((((cfg0.win 3).blk t).view.emb (ix2 p q)) 1))
  have hrow : ∀ k : Fin 512, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 1000 + 1 * p.val = win0_3.index t (0 : Fin 2) * 1000 + 1 * p.val; omega
    | ⟨1, _⟩ => show win0_0.index t (1 : Fin 2) * 512 + 1 * k.val = k.val; omega
  have hcol : ∀ k : Fin 512, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 512 + 1 * k.val = k.val; omega
    | ⟨1, _⟩ => show win0_1.index t (1 : Fin 2) * 256 + 1 * q.val = win0_3.index t (1 : Fin 2) * 256 + 1 * q.val; omega
  have hbias : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega
  rw [hbias]
  exact congrArg (· + _) (Finset.sum_congr rfl fun k _ =>
    congrArg₂ (· * ·) (congrArg (rowsArr V c) (hrow k)) (congrArg (weightArr V c) (hcol k)))

/-- An index of the output array lies in point `t`'s block iff each coordinate lies in the block's range. -/
theorem mem_block (t : Fin cfg0.N) (i : S10000x256.Idx) :
    i ∈ ((cfg0.win 3).blk t).view.set ↔ ∀ a : Fin 2, win0_3.index t a * S1000x256.size a ≤ (i a).val
      ∧ (i a).val < win0_3.index t a * S1000x256.size a + S1000x256.size a := by
  show i ∈ ((View.whole main_v4).slice (win0_3.rect t)).set ↔ _
  rw [View.set_slice_whole, Rect.mem_set_unit]
  exact Iff.rfl

/-- Every index of the output array is written by the point that holds its row: row r by point r / 1000. -/
theorem covered (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  have ht : (i 0).val / 1000 < 10 := by omega
  obtain ⟨-, -, -, -, -, -, d0, d1⟩ := block_origins ⟨(i 0).val / 1000, ht⟩
  refine ⟨⟨(i 0).val / 1000, ht⟩, flush0_3 _, ?_⟩
  rw [mem_block]
  intro a
  match a with
  | ⟨0, _⟩ =>
    show win0_3.index ⟨(i 0).val / 1000, ht⟩ (0 : Fin 2) * 1000 ≤ (i 0).val
      ∧ (i 0).val < win0_3.index ⟨(i 0).val / 1000, ht⟩ (0 : Fin 2) * 1000 + 1000
    have hv : (⟨(i 0).val / 1000, ht⟩ : Fin cfg0.N).val = (i 0).val / 1000 := rfl
    omega
  | ⟨1, _⟩ =>
    show win0_3.index ⟨(i 0).val / 1000, ht⟩ (1 : Fin 2) * 256 ≤ (i 1).val
      ∧ (i 1).val < win0_3.index ⟨(i 0).val / 1000, ht⟩ (1 : Fin 2) * 256 + 256
    omega

/-- The output array after the region: rows of the first array times the weights, plus the bias row. -/
theorem final (c : Dev nD) :
    (dat0 V c).arrAt 3 cfg0.N = affine (rowsArr V c) (weightArr V c) (biasArr V c) :=
  (dat0 V c).arrAt_eq_of_cover 3 _ (fun t _ => written_back V c t) covered

end Cert.KernelIdeal.Region0

end
-- ==== Proof.Region1.lean ====
/-
  Second matrix product, with the rectifier: each of the grid's fifty points takes a block of 200 rows of the
  square matrix, the whole 10000 x 256 array the previous region left and the one-row bias, and writes back the
  block's rows of max((rows x array) + bias, 0). The blocks tile the 10000 rows, so the output array after the
  region is that function of the three arrays the region found, whatever they were.
-/
import proofs.«158433_j21706764714291_1_alg».proof.Proof.Gen.KernelIdeal.Frame
import proofs.«158433_j21706764714291_1_alg».proof.Proof.LibPlainDot
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx Cert.PlainDot
open Idealize.ShloMosaic.Pipeline (Dat)

variable (V : (c : Dev nD) → (b : Ref sig .tc) → Buf (Elt Ideal) ((c : Thread nD τ).loc b))

/-- The three arrays the region reads, as it finds them, at their literal types. -/
abbrev squareArr (c : Dev nD) : S10000x10000.Idx → EReal := V c main_arg1
abbrev tallArr (c : Dev nD) : S10000x256.Idx → EReal := V c main_v4
abbrev biasArr (c : Dev nD) : S1x256.Idx → EReal := V c main_v5

theorem origin_zero : (![0, 0] : Fin 2 → Nat) = fun _ => 0 := funext fun a => by fin_cases a <;> rfl

/-- The printed contraction record is the plain rows-by-columns one. -/
theorem dims_eq : dot_S200x10000_S10000x256_S200x256_1_0_0_1_n_n = DotDims.plain 200 10000 256 := rfl

/-- The body's stored value: every format change is the identity on the extended reals, so it is the block's
    rows times the tall array plus the bias row, each entry then taken no lower than the zero word's value. -/
theorem stored_eq (x0 : Vec Ideal S200x10000 .f32) (x1 : Vec Ideal S10000x256 .bf16) (x2 : Vec Ideal S1x256 .f32) :
    k1_pay1 (F := Ideal) x0 x1 x2 = affineRelu x0 x1 x2 := by
  unfold k1_pay1
  dsimp only
  rw [shapeCast_self, shapeCast_self, dims_eq]
  exact matmul_add_row_max_eq none x0 x1 x2 _

/-- Where each window's block sits at point `t`: the square matrix's rows and the output rows move together
    with the point, everything else stays at the origin. -/
theorem block_origins : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `affineRelu` of the three arrays the region found. -/
theorem written_back (c : Dev nD) (t : Fin cfg1.N) :
    (dat1 V c).flushed 3 t
      = ((cfg1.win 3).blk t).view.read (Elt Ideal) (affineRelu (squareArr V c) (tallArr V c) (biasArr V c)) := by
  show (cfg1.win 3).cut (grid1.coords t) ((dat1 V c).after 3 t) = _
  rw [after1_3]
  unfold out1_3
  rw [View.canon_unit_zero origin_zero]
  simp only [View.ld_unit_zero (S := S200x10000) origin_zero, View.ld_unit_zero (S := S10000x256) origin_zero,
    View.ld_unit_zero (S := S1x256) origin_zero]
  rw [stored_eq]
  obtain ⟨a0, a1, b0, b1, c0, c1, d0, d1⟩ := block_origins t
  refine funext fun (j : S200x256.Idx) => ?_
  obtain ⟨p, q, rfl⟩ : ∃ (p : Fin 200) (q : Fin 256), j = ix2 p q := ⟨j 0, j 1, eq_ix2 j⟩
  show max ((∑ k : Fin 10000, squareArr V c (((cfg1.win 0).blk t).view.emb (ix2 p k)) * tallArr V c (((cfg1.win 1).blk t).view.emb (ix2 k q)))
        + biasArr V c (((cfg1.win 2).blk t).view.emb (ix2 (0 : Fin 1) q))) (Ideal.ofBits .f32 0x00000000#32)
      = max ((∑ k : Fin 10000, squareArr V c (ix2 ((((cfg1.win 3).blk t).view.emb (ix2 p q)) 0) k)
            * tallArr V c (ix2 k ((((cfg1.win 3).blk t).view.emb (ix2 p q)) 1)))
        + biasArr V c (ix2 (0 : Fin 1) ((((cfg1.win 3).blk t).view.emb (ix2 p q)) 1))) (Ideal.ofBits .f32 0x00000000#32)
  have hrow : ∀ k : Fin 10000, ((cfg1.win 0).blk t).view.emb (ix2 p k) = ix2 ((((cfg1.win 3).blk t).view.emb (ix2 p q)) 0) k := fun k => by
    funext a; apply Fin.ext
    match a with
    | ⟨0, _⟩ => show win1_0.index t (0 : Fin 2) * 200 + 1 * p.val = win1_3.index t (0 : Fin 2) * 200 + 1 * p.val; omega
    | ⟨1, _⟩ => show win1_0.index t (1 : Fin 2) * 10000 + 1 * k.val = k.val; omega
  have hcol : ∀ k : Fin 10000, ((cfg1.win 1).blk t).view.emb (ix2 k q) = ix2 k ((((cfg1.win 3).blk t).view.emb (ix2 p q)) 1) := fun k => by
    funext a; apply Fin.ext
    match a with
    | ⟨0, _⟩ => show win1_1.index t (0 : Fin 2) * 10000 + 1 * k.val = k.val; omega
    | ⟨1, _⟩ => show win1_1.index t (1 : Fin 2) * 256 + 1 * q.val = win1_3.index t (1 : Fin 2) * 256 + 1 * q.val; omega
  have hbias : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 256 + 1 * q.val = win1_3.index t (1 : Fin 2) * 256 + 1 * q.val; omega
  rw [hbias]
  exact congrArg (fun s => max (s + _) _) (Finset.sum_congr rfl fun k _ =>
    congrArg₂ (· * ·) (congrArg (squareArr V c) (hrow k)) (congrArg (tallArr V c) (hcol k)))

/-- An index of the output array lies in point `t`'s block iff each coordinate lies in the block's range. -/
theorem mem_block (t : Fin cfg1.N) (i : S10000x256.Idx) :
    i ∈ ((cfg1.win 3).blk t).view.set ↔ ∀ a : Fin 2, win1_3.index t a * S200x256.size a ≤ (i a).val
      ∧ (i a).val < win1_3.index t a * S200x256.size a + S200x256.size a := by
  show i ∈ ((View.whole main_v6).slice (win1_3.rect t)).set ↔ _
  rw [View.set_slice_whole, Rect.mem_set_unit]
  exact Iff.rfl

/-- Every index of the output array is written by the point that holds its row: row r by point r / 200. -/
theorem covered (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  have ht : (i 0).val / 200 < 50 := by omega
  obtain ⟨-, -, -, -, -, -, d0, d1⟩ := block_origins ⟨(i 0).val / 200, ht⟩
  refine ⟨⟨(i 0).val / 200, ht⟩, flush1_3 _, ?_⟩
  rw [mem_block]
  intro a
  match a with
  | ⟨0, _⟩ =>
    show win1_3.index ⟨(i 0).val / 200, ht⟩ (0 : Fin 2) * 200 ≤ (i 0).val
      ∧ (i 0).val < win1_3.index ⟨(i 0).val / 200, ht⟩ (0 : Fin 2) * 200 + 200
    have hv : (⟨(i 0).val / 200, ht⟩ : Fin cfg1.N).val = (i 0).val / 200 := rfl
    omega
  | ⟨1, _⟩ =>
    show win1_3.index ⟨(i 0).val / 200, ht⟩ (1 : Fin 2) * 256 ≤ (i 1).val
      ∧ (i 1).val < win1_3.index ⟨(i 0).val / 200, ht⟩ (1 : Fin 2) * 256 + 256
    omega

/-- The output array after the region: the square matrix times the tall array, plus the bias row, rectified. -/
theorem final (c : Dev nD) :
    (dat1 V c).arrAt 3 cfg1.N = affineRelu (squareArr V c) (tallArr V c) (biasArr V c) :=
  (dat1 V c).arrAt_eq_of_cover 3 _ (fun t _ => written_back V c t) covered

end Cert.KernelIdeal.Region1

end
-- ==== Proof.Region2.lean ====
/-
  Third matrix product of the program: the grid's ten points each take a block of 1000 rows of the rectified
  array the previous region left, the whole second weight matrix and the one-row bias, and write back the
  block's rows of (rows x weights) + bias. The blocks tile the 10000 rows, so the output array after the region
  is that function of the three arrays the region found, whatever they were.
-/
import proofs.«158433_j21706764714291_1_alg».proof.Proof.Gen.KernelIdeal.Frame
import proofs.«158433_j21706764714291_1_alg».proof.Proof.LibPlainDot
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx Cert.PlainDot
open Idealize.ShloMosaic.Pipeline (Dat)

variable (V : (c : Dev nD) → (b : Ref sig .tc) → Buf (Elt Ideal) ((c : Thread nD τ).loc b))

/-- The three arrays the region reads, as it finds them, at their literal types. -/
abbrev rowsArr (c : Dev nD) : S10000x256.Idx → EReal := V c main_v6
abbrev weightArr (c : Dev nD) : S256x64.Idx → EReal := V c main_arg4
abbrev biasArr (c : Dev nD) : S1x64.Idx → EReal := V c main_v7

theorem origin_zero : (![0, 0] : Fin 2 → Nat) = fun _ => 0 := funext fun a => by fin_cases a <;> rfl

/-- The printed contraction record is the plain rows-by-columns one. -/
theorem dims_eq : dot_S1000x256_S256x64_S1000x64_1_0_0_1_n_n = DotDims.plain 1000 256 64 := rfl

/-- The body's stored value: every format change is the identity on the extended reals, so it is the block's
    rows times the weights plus the bias row. -/
theorem stored_eq (x0 : Vec Ideal S1000x256 .bf16) (x1 : Vec Ideal S256x64 .f32) (x2 : Vec Ideal S1x64 .f32) :
    k2_pay1 (F := Ideal) x0 x1 x2 = affine x0 x1 x2 := by
  unfold k2_pay1
  dsimp only
  rw [shapeCast_self, shapeCast_self, dims_eq]
  exact matmul_add_row_eq none x0 x1 x2 _

/-- Where each window's block sits at point `t`: the input rows and the output rows move together with the
    point, everything else stays at the origin. -/
theorem block_origins : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `affine` of the three arrays the region found. -/
theorem written_back (c : Dev nD) (t : Fin cfg2.N) :
    (dat2 V c).flushed 3 t
      = ((cfg2.win 3).blk t).view.read (Elt Ideal) (affine (rowsArr V c) (weightArr V c) (biasArr V c)) := by
  show (cfg2.win 3).cut (grid2.coords t) ((dat2 V c).after 3 t) = _
  rw [after2_3]
  unfold out2_3
  rw [View.canon_unit_zero origin_zero]
  simp only [View.ld_unit_zero (S := S1000x256) origin_zero, View.ld_unit_zero (S := S256x64) origin_zero,
    View.ld_unit_zero (S := S1x64) origin_zero]
  rw [stored_eq]
  obtain ⟨a0, a1, b0, b1, c0, c1, d0, d1⟩ := block_origins t
  refine funext fun (j : S1000x64.Idx) => ?_
  obtain ⟨p, q, rfl⟩ : ∃ (p : Fin 1000) (q : Fin 64), j = ix2 p q := ⟨j 0, j 1, eq_ix2 j⟩
  show (∑ k : Fin 256, rowsArr V c (((cfg2.win 0).blk t).view.emb (ix2 p k)) * weightArr V c (((cfg2.win 1).blk t).view.emb (ix2 k q)))
        + biasArr V c (((cfg2.win 2).blk t).view.emb (ix2 (0 : Fin 1) q))
      = (∑ k : Fin 256, rowsArr V c (ix2 ((((cfg2.win 3).blk t).view.emb (ix2 p q)) 0) k)
            * weightArr V c (ix2 k ((((cfg2.win 3).blk t).view.emb (ix2 p q)) 1)))
        + biasArr V c (ix2 (0 : Fin 1) ((((cfg2.win 3).blk t).view.emb (ix2 p q)) 1))
  have hrow : ∀ k : Fin 256, ((cfg2.win 0).blk t).view.emb (ix2 p k) = ix2 ((((cfg2.win 3).blk t).view.emb (ix2 p q)) 0) k := fun k => by
    funext a; apply Fin.ext
    match a with
    | ⟨0, _⟩ => show win2_0.index t (0 : Fin 2) * 1000 + 1 * p.val = win2_3.index t (0 : Fin 2) * 1000 + 1 * p.val; omega
    | ⟨1, _⟩ => show win2_0.index t (1 : Fin 2) * 256 + 1 * k.val = k.val; omega
  have hcol : ∀ k : Fin 256, ((cfg2.win 1).blk t).view.emb (ix2 k q) = ix2 k ((((cfg2.win 3).blk t).view.emb (ix2 p q)) 1) := fun k => by
    funext a; apply Fin.ext
    match a with
    | ⟨0, _⟩ => show win2_1.index t (0 : Fin 2) * 256 + 1 * k.val = k.val; omega
    | ⟨1, _⟩ => show win2_1.index t (1 : Fin 2) * 64 + 1 * q.val = win2_3.index t (1 : Fin 2) * 64 + 1 * q.val; omega
  have hbias : ((cfg2.win 2).blk t).view.emb (ix2 (0 : Fin 1) q) = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 64 + 1 * q.val = win2_3.index t (1 : Fin 2) * 64 + 1 * q.val; omega
  rw [hbias]
  exact congrArg (· + _) (Finset.sum_congr rfl fun k _ =>
    congrArg₂ (· * ·) (congrArg (rowsArr V c) (hrow k)) (congrArg (weightArr V c) (hcol k)))

/-- An index of the output array lies in point `t`'s block iff each coordinate lies in the block's range. -/
theorem mem_block (t : Fin cfg2.N) (i : S10000x64.Idx) :
    i ∈ ((cfg2.win 3).blk t).view.set ↔ ∀ a : Fin 2, win2_3.index t a * S1000x64.size a ≤ (i a).val
      ∧ (i a).val < win2_3.index t a * S1000x64.size a + S1000x64.size a := by
  show i ∈ ((View.whole main_v8).slice (win2_3.rect t)).set ↔ _
  rw [View.set_slice_whole, Rect.mem_set_unit]
  exact Iff.rfl

/-- Every index of the output array is written by the point that holds its row: row r by point r / 1000. -/
theorem covered (i : S10000x64.Idx) :
    ∃ t : Fin cfg2.N, (cfg2.win 3).flush t = true ∧ i ∈ ((cfg2.win 3).blk t).view.set := by
  have hi0 : (i 0).val < 10000 := (i 0).isLt
  have hi1 : (i 1).val < 64 := (i 1).isLt
  have ht : (i 0).val / 1000 < 10 := by omega
  obtain ⟨-, -, -, -, -, -, d0, d1⟩ := block_origins ⟨(i 0).val / 1000, ht⟩
  refine ⟨⟨(i 0).val / 1000, ht⟩, flush2_3 _, ?_⟩
  rw [mem_block]
  intro a
  match a with
  | ⟨0, _⟩ =>
    show win2_3.index ⟨(i 0).val / 1000, ht⟩ (0 : Fin 2) * 1000 ≤ (i 0).val
      ∧ (i 0).val < win2_3.index ⟨(i 0).val / 1000, ht⟩ (0 : Fin 2) * 1000 + 1000
    have hv : (⟨(i 0).val / 1000, ht⟩ : Fin cfg2.N).val = (i 0).val / 1000 := rfl
    omega
  | ⟨1, _⟩ =>
    show win2_3.index ⟨(i 0).val / 1000, ht⟩ (1 : Fin 2) * 64 ≤ (i 1).val
      ∧ (i 1).val < win2_3.index ⟨(i 0).val / 1000, ht⟩ (1 : Fin 2) * 64 + 64
    omega

/-- The output array after the region: rows of the first array times the weights, plus the bias row. -/
theorem final (c : Dev nD) :
    (dat2 V c).arrAt 3 cfg2.N = affine (rowsArr V c) (weightArr V c) (biasArr V c) :=
  (dat2 V c).arrAt_eq_of_cover 3 _ (fun t _ => written_back V c t) covered

end Cert.KernelIdeal.Region2

end
-- ==== Proof.Region3.lean ====
/-
  Fourth matrix product of the program: the grid's fifty points each take a block of 200 rows of the square
  matrix, the whole 10000 x 64 array the previous region left and the one-row bias, and write back the block's
  rows of (rows x array) + bias. The blocks tile the 10000 rows, so the output array after the region is that
  function of the three arrays the region found, whatever they were.
-/
import proofs.«158433_j21706764714291_1_alg».proof.Proof.Gen.KernelIdeal.Frame
import proofs.«158433_j21706764714291_1_alg».proof.Proof.LibPlainDot
import Idealize.ShloMosaic.Lib.Pipeline.Value

noncomputable section

namespace Cert.KernelIdeal.Region3

open Cert.KernelIdeal Cert.KernelIdeal.Gen Idealize.ShloMosaic Idealize.ShloMosaic.TcCoe Idealize.SL.Sem
open Idealize.ShloMosaic.ValueIdx Cert.PlainDot
open Idealize.ShloMosaic.Pipeline (Dat)

variable (V : (c : Dev nD) → (b : Ref sig .tc) → Buf (Elt Ideal) ((c : Thread nD τ).loc b))

/-- The three arrays the region reads, as it finds them, at their literal types. -/
abbrev rowsArr (c : Dev nD) : S10000x10000.Idx → EReal := V c main_arg1
abbrev weightArr (c : Dev nD) : S10000x64.Idx → EReal := V c main_v8
abbrev biasArr (c : Dev nD) : S1x64.Idx → EReal := V c main_v9

theorem origin_zero : (![0, 0] : Fin 2 → Nat) = fun _ => 0 := funext fun a => by fin_cases a <;> rfl

/-- The printed contraction record is the plain rows-by-columns one. -/
theorem dims_eq : dot_S200x10000_S10000x64_S200x64_1_0_0_1_n_n = DotDims.plain 200 10000 64 := rfl

/-- The body's stored value: every format change is the identity on the extended reals, so it is the block's
    rows times the weights plus the bias row. -/
theorem stored_eq (x0 : Vec Ideal S200x10000 .f32) (x1 : Vec Ideal S10000x64 .bf16) (x2 : Vec Ideal S1x64 .f32) :
    k3_pay1 (F := Ideal) x0 x1 x2 = affine x0 x1 x2 := by
  unfold k3_pay1
  dsimp only
  rw [shapeCast_self, shapeCast_self, dims_eq]
  exact matmul_add_row_eq none x0 x1 x2 _

/-- Where each window's block sits at point `t`: the input rows and the output rows move together with the
    point, everything else stays at the origin. -/
theorem block_origins : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of `affine` of the three arrays the region found. -/
theorem written_back (c : Dev nD) (t : Fin cfg3.N) :
    (dat3 V c).flushed 3 t
      = ((cfg3.win 3).blk t).view.read (Elt Ideal) (affine (rowsArr V c) (weightArr V c) (biasArr V c)) := by
  show (cfg3.win 3).cut (grid3.coords t) ((dat3 V c).after 3 t) = _
  rw [after3_3]
  unfold out3_3
  rw [View.canon_unit_zero origin_zero]
  simp only [View.ld_unit_zero (S := S200x10000) origin_zero, View.ld_unit_zero (S := S10000x64) origin_zero,
    View.ld_unit_zero (S := S1x64) origin_zero]
  rw [stored_eq]
  obtain ⟨a0, a1, b0, b1, c0, c1, d0, d1⟩ := block_origins t
  refine funext fun (j : S200x64.Idx) => ?_
  obtain ⟨p, q, rfl⟩ : ∃ (p : Fin 200) (q : Fin 64), j = ix2 p q := ⟨j 0, j 1, eq_ix2 j⟩
  show (∑ k : Fin 10000, rowsArr V c (((cfg3.win 0).blk t).view.emb (ix2 p k)) * weightArr V c (((cfg3.win 1).blk t).view.emb (ix2 k q)))
        + biasArr V c (((cfg3.win 2).blk t).view.emb (ix2 (0 : Fin 1) q))
      = (∑ k : Fin 10000, rowsArr V c (ix2 ((((cfg3.win 3).blk t).view.emb (ix2 p q)) 0) k)
            * weightArr V c (ix2 k ((((cfg3.win 3).blk t).view.emb (ix2 p q)) 1)))
        + biasArr V c (ix2 (0 : Fin 1) ((((cfg3.win 3).blk t).view.emb (ix2 p q)) 1))
  have hrow : ∀ k : Fin 10000, ((cfg3.win 0).blk t).view.emb (ix2 p k) = ix2 ((((cfg3.win 3).blk t).view.emb (ix2 p q)) 0) k := fun k => by
    funext a; apply Fin.ext
    match a with
    | ⟨0, _⟩ => show win3_0.index t (0 : Fin 2) * 200 + 1 * p.val = win3_3.index t (0 : Fin 2) * 200 + 1 * p.val; omega
    | ⟨1, _⟩ => show win3_0.index t (1 : Fin 2) * 10000 + 1 * k.val = k.val; omega
  have hcol : ∀ k : Fin 10000, ((cfg3.win 1).blk t).view.emb (ix2 k q) = ix2 k ((((cfg3.win 3).blk t).view.emb (ix2 p q)) 1) := fun k => by
    funext a; apply Fin.ext
    match a with
    | ⟨0, _⟩ => show win3_1.index t (0 : Fin 2) * 10000 + 1 * k.val = k.val; omega
    | ⟨1, _⟩ => show win3_1.index t (1 : Fin 2) * 64 + 1 * q.val = win3_3.index t (1 : Fin 2) * 64 + 1 * q.val; omega
  have hbias : ((cfg3.win 2).blk t).view.emb (ix2 (0 : Fin 1) q) = ix2 (0 : Fin 1) ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 64 + 1 * q.val = win3_3.index t (1 : Fin 2) * 64 + 1 * q.val; omega
  rw [hbias]
  exact congrArg (· + _) (Finset.sum_congr rfl fun k _ =>
    congrArg₂ (· * ·) (congrArg (rowsArr V c) (hrow k)) (congrArg (weightArr V c) (hcol k)))

/-- An index of the output array lies in point `t`'s block iff each coordinate lies in the block's range. -/
theorem mem_block (t : Fin cfg3.N) (i : S10000x64.Idx) :
    i ∈ ((cfg3.win 3).blk t).view.set ↔ ∀ a : Fin 2, win3_3.index t a * S200x64.size a ≤ (i a).val
      ∧ (i a).val < win3_3.index t a * S200x64.size a + S200x64.size a := by
  show i ∈ ((View.whole main_v10).slice (win3_3.rect t)).set ↔ _
  rw [View.set_slice_whole, Rect.mem_set_unit]
  exact Iff.rfl

/-- Every index of the output array is written by the point that holds its row: row r by point r / 200. -/
theorem covered (i : S10000x64.Idx) :
    ∃ t : Fin cfg3.N, (cfg3.win 3).flush t = true ∧ i ∈ ((cfg3.win 3).blk t).view.set := by
  have hi0 : (i 0).val < 10000 := (i 0).isLt
  have hi1 : (i 1).val < 64 := (i 1).isLt
  have ht : (i 0).val / 200 < 50 := by omega
  obtain ⟨-, -, -, -, -, -, d0, d1⟩ := block_origins ⟨(i 0).val / 200, ht⟩
  refine ⟨⟨(i 0).val / 200, ht⟩, flush3_3 _, ?_⟩
  rw [mem_block]
  intro a
  match a with
  | ⟨0, _⟩ =>
    show win3_3.index ⟨(i 0).val / 200, ht⟩ (0 : Fin 2) * 200 ≤ (i 0).val
      ∧ (i 0).val < win3_3.index ⟨(i 0).val / 200, ht⟩ (0 : Fin 2) * 200 + 200
    have hv : (⟨(i 0).val / 200, ht⟩ : Fin cfg3.N).val = (i 0).val / 200 := rfl
    omega
  | ⟨1, _⟩ =>
    show win3_3.index ⟨(i 0).val / 200, ht⟩ (1 : Fin 2) * 64 ≤ (i 1).val
      ∧ (i 1).val < win3_3.index ⟨(i 0).val / 200, ht⟩ (1 : Fin 2) * 64 + 64
    omega

/-- The output array after the region: rows of the first array times the weights, plus the bias row. -/
theorem final (c : Dev nD) :
    (dat3 V c).arrAt 3 cfg3.N = affine (rowsArr V c) (weightArr V c) (biasArr V c) :=
  (dat3 V c).arrAt_eq_of_cover 3 _ (fun t _ => written_back V c t) covered

end Cert.KernelIdeal.Region3

end
-- ==== Proof.KernelResult.lean ====
/-
  The idealized kernel's result as one function of its eight arguments. The run's last boundary holds, at the result
  buffer, the head (a dot product with the last weight column plus its bias) of the fourth region's output; each
  region's output is the matrix product plus bias row of the arrays it found (rectified in the second region), and
  what a region found is either an argument, a reshaped argument, a reshaped splat of zero, or the previous
  region's output: the host operations between the regions only reshape, and nothing else writes those buffers.
-/
import proofs.«158433_j21706764714291_1_alg».proof.Proof.RunNamed
import proofs.«158433_j21706764714291_1_alg».proof.Proof.Region0
import proofs.«158433_j21706764714291_1_alg».proof.Proof.Region1
import proofs.«158433_j21706764714291_1_alg».proof.Proof.Region2
import proofs.«158433_j21706764714291_1_alg».proof.Proof.Region3
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo Cert.PlainDot

/-! ## The result as a function of the arguments -/

/-- The bias row of the two products that have no bias: a splat of the zero word, reshaped to one row. -/
def zeroRow256 : S1x256.Idx → EReal :=
  shapeCast S1x256 (broadcastInDim S256 ![] bcast_S_S256 (constant (F := Ideal) S_ .f32 0x00000000#32)) shapeCasts_S256_S1x256
def zeroRow64 : S1x64.Idx → EReal :=
  shapeCast S1x64 (broadcastInDim S64 ![] bcast_S_S64 (constant (F := Ideal) S_ .f32 0x00000000#32)) shapeCasts_S64_S1x64

/-- First product: the reshaped input times the first weights. -/
def proj1 (x : S10000x1x512.Idx → EReal) (w1 : S512x256.Idx → EReal) : S10000x256.Idx → EReal :=
  affine (shapeCast S10000x512 x shapeCasts_S10000x1x512_S10000x512) w1 zeroRow256
/-- First layer: the square matrix times that, plus the first bias, rectified. -/
def layer1 (x : S10000x1x512.Idx → EReal) (adj : S10000x10000.Idx → EReal) (w1 : S512x256.Idx → EReal)
    (b1 : S256.Idx → EReal) : S10000x256.Idx → EReal :=
  affineRelu adj (proj1 x w1) (shapeCast S1x256 b1 shapeCasts_S256_S1x256)
/-- Second product: the first layer times the second weights. -/
def proj2 (x : S10000x1x512.Idx → EReal) (adj : S10000x10000.Idx → EReal) (w1 : S512x256.Idx → EReal)
    (b1 : S256.Idx → EReal) (w2 : S256x64.Idx → EReal) : S10000x64.Idx → EReal :=
  affine (layer1 x adj w1 b1) w2 zeroRow64
/-- Second layer: the square matrix times that, plus the second bias. -/
def layer2 (x : S10000x1x512.Idx → EReal) (adj : S10000x10000.Idx → EReal) (w1 : S512x256.Idx → EReal)
    (b1 : S256.Idx → EReal) (w2 : S256x64.Idx → EReal) (b2 : S64.Idx → EReal) : S10000x64.Idx → EReal :=
  affine adj (proj2 x adj w1 b1 w2) (shapeCast S1x64 b2 shapeCasts_S64_S1x64)
/-- The head on any 10000 x 64 array: its product with the last weight column, plus the last bias on every row. -/
def head (h : FVec Ideal S10000x64 .f32) (wl : FVec Ideal S64x1 .f32) (bl : FVec Ideal S1 .f32) : FVec Ideal S10000x1 .f32 :=
  addf (Host.dotGeneral dot_S10000x64_S64x1_S10000x1_1_0_0_1_n_n none h wl)
    (broadcastInDim S10000x1 ![0, 1] bcast_S1x1_S10000x1_0_1 (broadcastInDim S1x1 ![1] bcast_S1_S1x1_1 bl))

variable (m : (ℓ : Loc nD τ sig) → Buf (Elt Ideal) ℓ) (ρ : Dev nD → PrngReg)

/-- A host stretch leaves alone every buffer that none of its operations writes. -/
local macro "stretch_keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.reshape_writes, Finset.mem_singleton]
    repeat' apply And.intro
    all_goals exact StableHlo.devRef_ne_of_ne (by decide))))

/-! ## What the first region finds, and leaves -/

theorem rows0 (c : Dev nD) : Region0.rowsArr (V1 m ρ) c
    = shapeCast S10000x512 (m ((c : Thread nD τ).loc main_arg0)) shapeCasts_S10000x1x512_S10000x512 := by
  show StableHlo.after hostOps0 (W0 m ρ c) (Proc.devRef .tc main_v0) = _
  after_results <;> rfl
theorem weights0 (c : Dev nD) : Region0.weightArr (V1 m ρ) c = m ((c : Thread nD τ).loc main_arg2) := by
  show StableHlo.after hostOps0 (W0 m ρ c) (Proc.devRef .tc main_arg2) = _
  after_results <;> rfl
theorem bias0 (c : Dev nD) : Region0.biasArr (V1 m ρ) c = zeroRow256 := by
  show StableHlo.after hostOps0 (W0 m ρ c) (Proc.devRef .tc main_v3) = _
  after_results <;> rfl

theorem out0 (c : Dev nD) : W2 m ρ c (Proc.devRef .tc main_v4)
    = proj1 (m ((c : Thread nD τ).loc main_arg0)) (m ((c : Thread nD τ).loc main_arg2)) :=
  (W2_arr m ρ c 3).trans ((Region0.final (V1 m ρ) c).trans (by rw [rows0, weights0, bias0]; rfl))

/-! ## The second region -/

theorem square1 (c : Dev nD) : Region1.squareArr (V3 m ρ) c = m ((c : Thread nD τ).loc main_arg1) :=
  calc W3 m ρ c (Proc.devRef .tc main_arg1)
    _ = W2 m ρ c (Proc.devRef .tc main_arg1) := by stretch_keeps hostOps1
    _ = W1 m ρ c (Proc.devRef .tc main_arg1) := W2_of_ne m ρ c main_arg1 (by decide)
    _ = W0 m ρ c (Proc.devRef .tc main_arg1) := by stretch_keeps hostOps0
    _ = m ((c : Thread nD τ).loc main_arg1) := rfl
theorem tall1 (c : Dev nD) : Region1.tallArr (V3 m ρ) c = W2 m ρ c (Proc.devRef .tc main_v4) := by
  show StableHlo.after hostOps1 (W2 m ρ c) (Proc.devRef .tc main_v4) = _
  stretch_keeps hostOps1
theorem arg3_at2 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by stretch_keeps hostOps0
    _ = m ((c : Thread nD τ).loc main_arg3) := rfl
theorem bias1 (c : Dev nD) : Region1.biasArr (V3 m ρ) c
    = shapeCast S1x256 (m ((c : Thread nD τ).loc main_arg3)) shapeCasts_S256_S1x256 := by
  rw [← arg3_at2 m ρ c]
  show StableHlo.after hostOps1 (W2 m ρ c) (Proc.devRef .tc main_v5) = _
  after_results <;> rfl

theorem out1 (c : Dev nD) : W4 m ρ c (Proc.devRef .tc main_v6)
    = layer1 (m ((c : Thread nD τ).loc main_arg0)) (m ((c : Thread nD τ).loc main_arg1))
        (m ((c : Thread nD τ).loc main_arg2)) (m ((c : Thread nD τ).loc main_arg3)) :=
  (W4_arr m ρ c 3).trans ((Region1.final (V3 m ρ) c).trans (by rw [square1, tall1, bias1, out0]; rfl))

/-! ## The third region -/

theorem rows2 (c : Dev nD) : Region2.rowsArr (V5 m ρ) c = W4 m ρ c (Proc.devRef .tc main_v6) := by
  show StableHlo.after hostOps2 (W4 m ρ c) (Proc.devRef .tc main_v6) = _
  stretch_keeps hostOps2
theorem weights2 (c : Dev nD) : Region2.weightArr (V5 m ρ) c = m ((c : Thread nD τ).loc main_arg4) :=
  calc W5 m ρ c (Proc.devRef .tc main_arg4)
    _ = W4 m ρ c (Proc.devRef .tc main_arg4) := by stretch_keeps hostOps2
    _ = W3 m ρ c (Proc.devRef .tc main_arg4) := W4_of_ne m ρ c main_arg4 (by decide)
    _ = W2 m ρ c (Proc.devRef .tc main_arg4) := by stretch_keeps hostOps1
    _ = W1 m ρ c (Proc.devRef .tc main_arg4) := W2_of_ne m ρ c main_arg4 (by decide)
    _ = W0 m ρ c (Proc.devRef .tc main_arg4) := by stretch_keeps hostOps0
    _ = m ((c : Thread nD τ).loc main_arg4) := rfl
theorem splat_at4 (c : Dev nD) : W4 m ρ c (Proc.devRef .tc main_v2)
    = broadcastInDim S64 ![] bcast_S_S64 (constant (F := Ideal) S_ .f32 0x00000000#32) :=
  calc W4 m ρ c (Proc.devRef .tc main_v2)
    _ = W3 m ρ c (Proc.devRef .tc main_v2) := W4_of_ne m ρ c main_v2 (by decide)
    _ = W2 m ρ c (Proc.devRef .tc main_v2) := by stretch_keeps hostOps1
    _ = W1 m ρ c (Proc.devRef .tc main_v2) := W2_of_ne m ρ c main_v2 (by decide)
    _ = _ := by
      show StableHlo.after hostOps0 (W0 m ρ c) (Proc.devRef .tc main_v2) = _
      after_results <;> rfl
theorem bias2 (c : Dev nD) : Region2.biasArr (V5 m ρ) c = zeroRow64 := by
  unfold zeroRow64
  rw [← splat_at4 m ρ c]
  show StableHlo.after hostOps2 (W4 m ρ c) (Proc.devRef .tc main_v7) = _
  after_results <;> rfl

theorem out2 (c : Dev nD) : W6 m ρ c (Proc.devRef .tc main_v8)
    = proj2 (m ((c : Thread nD τ).loc main_arg0)) (m ((c : Thread nD τ).loc main_arg1))
        (m ((c : Thread nD τ).loc main_arg2)) (m ((c : Thread nD τ).loc main_arg3)) (m ((c : Thread nD τ).loc main_arg4)) :=
  (W6_arr m ρ c 3).trans ((Region2.final (V5 m ρ) c).trans (by rw [rows2, weights2, bias2, out1]; rfl))

/-! ## The fourth region -/

theorem square3 (c : Dev nD) : Region3.rowsArr (V7 m ρ) c = m ((c : Thread nD τ).loc main_arg1) :=
  calc W7 m ρ c (Proc.devRef .tc main_arg1)
    _ = W8 m ρ c (Proc.devRef .tc main_arg1) :=
        ((W8_arr m ρ c 0).trans (((dat3 (V7 m ρ) c).arrAt_in 0 rfl _).trans (A_eq3 (V7 m ρ) c 0))).symm
    _ = W9 m ρ c (Proc.devRef .tc main_arg1) := Eq.symm (by stretch_keeps hostOps4)
    _ = m ((c : Thread nD τ).loc main_arg1) := W9_main_arg1 m ρ c
theorem tall3 (c : Dev nD) : Region3.weightArr (V7 m ρ) c = W6 m ρ c (Proc.devRef .tc main_v8) := by
  show StableHlo.after hostOps3 (W6 m ρ c) (Proc.devRef .tc main_v8) = _
  stretch_keeps hostOps3
theorem arg5_at6 (c : Dev nD) : W6 m ρ c (Proc.devRef .tc main_arg5) = m ((c : Thread nD τ).loc main_arg5) :=
  calc W6 m ρ c (Proc.devRef .tc main_arg5)
    _ = W7 m ρ c (Proc.devRef .tc main_arg5) := Eq.symm (by stretch_keeps hostOps3)
    _ = W8 m ρ c (Proc.devRef .tc main_arg5) := (W8_of_ne m ρ c main_arg5 (by decide)).symm
    _ = W9 m ρ c (Proc.devRef .tc main_arg5) := Eq.symm (by stretch_keeps hostOps4)
    _ = m ((c : Thread nD τ).loc main_arg5) := W9_main_arg5 m ρ c
theorem bias3 (c : Dev nD) : Region3.biasArr (V7 m ρ) c
    = shapeCast S1x64 (m ((c : Thread nD τ).loc main_arg5)) shapeCasts_S64_S1x64 := by
  rw [← arg5_at6 m ρ c]
  show StableHlo.after hostOps3 (W6 m ρ c) (Proc.devRef .tc main_v9) = _
  after_results <;> rfl

theorem out3 (c : Dev nD) : W8 m ρ c (Proc.devRef .tc main_v10)
    = layer2 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) :=
  (W8_arr m ρ c 3).trans ((Region3.final (V7 m ρ) c).trans (by rw [square3, tall3, bias3, out2]; rfl))

/-! ## The head, and the run -/

theorem arg6_at8 (c : Dev nD) : W8 m ρ c (Proc.devRef .tc main_arg6) = m ((c : Thread nD τ).loc main_arg6) :=
  (Eq.symm (by stretch_keeps hostOps4) : W8 m ρ c (Proc.devRef .tc main_arg6) = W9 m ρ c (Proc.devRef .tc main_arg6)).trans
    (W9_main_arg6 m ρ c)
theorem arg7_at8 (c : Dev nD) : W8 m ρ c (Proc.devRef .tc main_arg7) = m ((c : Thread nD τ).loc main_arg7) :=
  (Eq.symm (by stretch_keeps hostOps4) : W8 m ρ c (Proc.devRef .tc main_arg7) = W9 m ρ c (Proc.devRef .tc main_arg7)).trans
    (W9_main_arg7 m ρ c)

/-- The last boundary's contents at the result buffer: the head of the second layer. -/
theorem result_eq (c : Dev nD) : W9 m ρ c (Proc.devRef .tc main_v14)
    = head (layer2 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))) (m ((c : Thread nD τ).loc main_arg6)) (m ((c : Thread nD τ).loc main_arg7)) := by
  rw [← out3 m ρ c, ← arg6_at8 m ρ c, ← arg7_at8 m ρ c]
  show StableHlo.after hostOps4 (W8 m ρ c) (Proc.devRef .tc main_v14) = _
  after_results <;> rfl

/-- Every weakly fair execution of the idealized kernel terminates with the result buffer at `head (layer2 …)` of
    the arguments, the arguments unchanged. -/
theorem run : θ_run defs (onTc (τ := τ) (main (F := Ideal))) ⟨m, fun _ => 0, ρ⟩ (fun r => ∀ c : Dev nD,
      r.2.mem ((c.tc : Thread nD τ).loc main_v14)
        = head (layer2 (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5))) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩)
    (Cert.KernelIdeal.RunNamed.run_named (F := Ideal) m ρ)

end Cert.KernelIdeal.Result

end
-- ==== Proof.LibHostRows.lean ====
/-
  The host program's forms of a matrix product with a row added to every row, read at an index: a vector broadcast
  first to one row and then over the rows, a dot product alone (a row of zeros added), a dot product plus such a
  broadcast, and that followed by the maximum with a splat of the zero word. Each is `affine` or `affineRelu`.
-/
import proofs.«158433_j21706764714291_1_alg».proof.Proof.LibPlainDot

noncomputable section

namespace Cert.PlainDot

open Idealize.ShloMosaic Idealize.ShloMosaic.ValueIdx

variable {M K N : Nat}

/-- A vector broadcast first to one row and then over the rows reads, at (p, q), the vector at q. -/
theorem bcast_rows_apply {α : Type} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    broadcastInDim (⟨2, ![M, N]⟩ : Shape) ![0, 1] h2 (broadcastInDim (⟨2, ![1, N]⟩ : Shape) ![1] h1 b) (ix2 p q)
      = b (ix1 q) := by
  have hq : q.val = if N = 1 then 0 else q.val := by
    split
    · have := q.isLt; omega
    · rfl
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ => exact hq
  · match a with
    | ⟨0, _⟩ => exact hq

/-- The host's dot product alone is `affine` with any row that is zero everywhere. -/
theorem dotGeneral_eq_affine {φ₁ φ₂ : FTy} (prec : Option ContractPrecision)
    (A : FVec Ideal (⟨2, ![M, K]⟩ : Shape) φ₁) (B : FVec Ideal (⟨2, ![K, N]⟩ : Shape) φ₂)
    (z : (⟨2, ![1, N]⟩ : Shape).Idx → EReal) (hz : ∀ q : Fin N, z (ix2 (0 : Fin 1) q) = 0) :
    Host.dotGeneral (F := Ideal) (DotDims.plain M K N) prec A B = affine A B z := by
  funext j
  obtain ⟨p, q, rfl⟩ : ∃ (p : Fin M) (q : Fin N), j = ix2 p q := ⟨j 0, j 1, eq_ix2 j⟩
  show FloatOps.dotGeneral (DotDims.plain M K N) prec .single A B (ix2 p q) = _ + z (ix2 (0 : Fin 1) q)
  rw [dotGeneral_apply, hz, add_zero]

/-- The host's dot product plus a vector broadcast over the rows is `affine` with the vector reshaped to one row. -/
theorem dotGeneral_add_rows_eq {φ₁ φ₂ : FTy} (prec : Option ContractPrecision)
    (A : FVec Ideal (⟨2, ![M, K]⟩ : Shape) φ₁) (B : FVec Ideal (⟨2, ![K, N]⟩ : Shape) φ₂)
    (b : FVec Ideal (⟨1, ![N]⟩ : Shape) .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) :
    addf (Host.dotGeneral (F := Ideal) (DotDims.plain M K N) prec A B)
        (broadcastInDim (⟨2, ![M, N]⟩ : Shape) ![0, 1] h2 (broadcastInDim (⟨2, ![1, N]⟩ : Shape) ![1] h1 b))
      = affine A B (shapeCast (⟨2, ![1, N]⟩ : Shape) b hc) := by
  funext j
  obtain ⟨p, q, rfl⟩ : ∃ (p : Fin M) (q : Fin N), j = ix2 p q := ⟨j 0, j 1, eq_ix2 j⟩
  show FloatOps.dotGeneral (DotDims.plain M K N) prec .single A B (ix2 p q)
      + broadcastInDim (⟨2, ![M, N]⟩ : Shape) ![0, 1] h2 (broadcastInDim (⟨2, ![1, N]⟩ : Shape) ![1] h1 b) (ix2 p q)
    = _ + shapeCast (⟨2, ![1, N]⟩ : Shape) b hc (ix2 (0 : Fin 1) q)
  rw [dotGeneral_apply, bcast_rows_apply, shapeCast_a_1a_apply]

/-- The same, then the entrywise maximum with a splat of the zero word: `affineRelu`. -/
theorem dotGeneral_add_rows_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨1, ![N]⟩ : Shape) .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩)
    (h0 : (⟨0, ![]⟩ : Shape).BroadcastsInDim ⟨2, ![M, N]⟩ (![] : Fin 0 → Fin 2)) :
    maximumf (addf (Host.dotGeneral (F := Ideal) (DotDims.plain M K N) prec A B)
        (broadcastInDim (⟨2, ![M, N]⟩ : Shape) ![0, 1] h2 (broadcastInDim (⟨2, ![1, N]⟩ : Shape) ![1] h1 b)))
      (broadcastInDim (⟨2, ![M, N]⟩ : Shape) ![] h0 (constant (F := Ideal) (⟨0, ![]⟩ : Shape) .f32 0x00000000#32))
      = affineRelu A B (shapeCast (⟨2, ![1, N]⟩ : Shape) b hc) := by
  rw [dotGeneral_add_rows_eq prec A B b h1 h2 hc]
  rfl

end Cert.PlainDot

end
-- ==== Proof.RefResult.lean ====
/-
  The reference computes the same function. Its run ends with the result at the host operations' composed term of
  the arguments: reshape, four dot products with a bias broadcast over the rows after the second and the fourth
  (a maximum with a splat of zero after the second), and the head. Read at an index, a host dot product is the sum
  over the inner index of row entry times column entry, a vector broadcast over rows reads the vector at the
  column, and adding a row of zeros changes nothing: so each stage is the kernel's `affine` stage of the same arrays,
  and the two heads are the same operations.
-/
import proofs.«158433_j21706764714291_1_alg».proof.Proof.KernelResult
import proofs.«158433_j21706764714291_1_alg».proof.Proof.LibHostRows
import proofs.«158433_j21706764714291_1_alg».proof.Proof.Gen.ReferenceIdeal.Run

noncomputable section

namespace Cert.RefResult

open Cert.ReferenceIdeal Cert.ReferenceIdeal.Gen Idealize.ShloMosaic Idealize.ShloMosaic.ValueIdx Cert.PlainDot

/-- The reference's four contraction records before the head are plain rows-by-columns ones. -/
theorem dims1 : dot_S10000x512_S512x256_S10000x256_1_0_0_1_n_n = DotDims.plain 10000 512 256 := rfl
theorem dims2 : dot_S10000x10000_S10000x256_S10000x256_1_0_0_1_n_n = DotDims.plain 10000 10000 256 := rfl
theorem dims3 : dot_S10000x256_S256x64_S10000x64_1_0_0_1_n_n = DotDims.plain 10000 256 64 := rfl
theorem dims4 : dot_S10000x10000_S10000x64_S10000x64_1_0_0_1_n_n = DotDims.plain 10000 10000 64 := rfl

/-- The kernel's two bias rows without a bias are zero at every column. -/
theorem zero256 (q : Fin 256) : Cert.KernelIdeal.Result.zeroRow256 (ix2 (0 : Fin 1) q) = 0 :=
  (Ideal.ofBits_zero_f32 : Ideal.ofBits .f32 0x00000000#32 = 0)
theorem zero64 (q : Fin 64) : Cert.KernelIdeal.Result.zeroRow64 (ix2 (0 : Fin 1) q) = 0 :=
  (Ideal.ofBits_zero_f32 : Ideal.ofBits .f32 0x00000000#32 = 0)

/-- The reference's composed term, at any arguments, is the kernel's function of them. -/
theorem reference_eq (x : FVec Ideal S10000x1x512 .f32) (adj : FVec Ideal S10000x10000 .f32) (w1 : FVec Ideal S512x256 .f32)
    (b1 : FVec Ideal S256 .f32) (w2 : FVec Ideal S256x64 .f32) (b2 : FVec Ideal S64 .f32) (wl : FVec Ideal S64x1 .f32)
    (bl : FVec Ideal S1 .f32) :
    addf (Host.dotGeneral dot_S10000x64_S64x1_S10000x1_1_0_0_1_n_n none (addf (Host.dotGeneral dot_S10000x10000_S10000x64_S10000x64_1_0_0_1_n_n none adj (Host.dotGeneral dot_S10000x256_S256x64_S10000x64_1_0_0_1_n_n none (maximumf (addf (Host.dotGeneral dot_S10000x10000_S10000x256_S10000x256_1_0_0_1_n_n none adj (Host.dotGeneral dot_S10000x512_S512x256_S10000x256_1_0_0_1_n_n none (shapeCast _ x shapeCasts_S10000x1x512_S10000x512) w1)) (broadcastInDim S10000x256 ![0, 1] bcast_S1x256_S10000x256_0_1 (broadcastInDim S1x256 ![1] bcast_S256_S1x256_1 b1))) (broadcastInDim S10000x256 ![] bcast_S_S10000x256 (constant S_ .f32 0x00000000#32))) w2)) (broadcastInDim S10000x64 ![0, 1] bcast_S1x64_S10000x64_0_1 (broadcastInDim S1x64 ![1] bcast_S64_S1x64_1 b2))) wl) (broadcastInDim S10000x1 ![0, 1] bcast_S1x1_S10000x1_0_1 (broadcastInDim S1x1 ![1] bcast_S1_S1x1_1 bl))
      = Cert.KernelIdeal.Result.head (Cert.KernelIdeal.Result.layer2 x adj w1 b1 w2 b2) wl bl := by
  have e1 : Host.dotGeneral (F := Ideal) dot_S10000x512_S512x256_S10000x256_1_0_0_1_n_n none
        (shapeCast S10000x512 x shapeCasts_S10000x1x512_S10000x512) w1 = Cert.KernelIdeal.Result.proj1 x w1 := by
    rw [dims1]
    exact dotGeneral_eq_affine none _ w1 Cert.KernelIdeal.Result.zeroRow256 zero256
  have e2 : maximumf (addf (Host.dotGeneral (F := Ideal) (φ₂ := .f32) dot_S10000x10000_S10000x256_S10000x256_1_0_0_1_n_n none adj
          (Cert.KernelIdeal.Result.proj1 x w1))
        (broadcastInDim S10000x256 ![0, 1] bcast_S1x256_S10000x256_0_1 (broadcastInDim S1x256 ![1] bcast_S256_S1x256_1 b1)))
      (broadcastInDim S10000x256 ![] bcast_S_S10000x256 (constant (F := Ideal) S_ .f32 0x00000000#32))
      = Cert.KernelIdeal.Result.layer1 x adj w1 b1 := by
    rw [dims2]
    exact dotGeneral_add_rows_max_eq none adj _ b1 _ _ _ _
  have e3 : Host.dotGeneral (F := Ideal) (φ₁ := .f32) dot_S10000x256_S256x64_S10000x64_1_0_0_1_n_n none
        (Cert.KernelIdeal.Result.layer1 x adj w1 b1) w2 = Cert.KernelIdeal.Result.proj2 x adj w1 b1 w2 := by
    rw [dims3]
    exact dotGeneral_eq_affine none _ w2 Cert.KernelIdeal.Result.zeroRow64 zero64
  have e4 : addf (Host.dotGeneral (F := Ideal) (φ₂ := .f32) dot_S10000x10000_S10000x64_S10000x64_1_0_0_1_n_n none adj
          (Cert.KernelIdeal.Result.proj2 x adj w1 b1 w2))
        (broadcastInDim S10000x64 ![0, 1] bcast_S1x64_S10000x64_0_1 (broadcastInDim S1x64 ![1] bcast_S64_S1x64_1 b2))
      = Cert.KernelIdeal.Result.layer2 x adj w1 b1 w2 b2 := by
    rw [dims4]
    exact dotGeneral_add_rows_eq none adj _ b2 _ _ _
  rw [e1, e2, e3, e4]
  rfl

end Cert.RefResult

end
-- ==== Proof.lean ====
/-
  The certificate of a two-layer graph convolution with a linear head: on 10000 nodes, out = (A·relu(A·(X·W1) + b1)·W2 + b2)·Wl + bl,
  with X the input reshaped to 10000 x 512 and A the 10000 x 10000 matrix.

  The kernel computes the four matrix products in four pipelined regions, each tiled over blocks of rows (1000 or 200
  at a time, the blocks tiling the 10000 rows exactly), with the operands cast to a narrower float format before the
  matrix unit and the results between regions stored in it; the two products that have no bias add a row of zeros.
  At the extended reals a change of float format is the identity and adding zero changes nothing, so each region
  leaves, in its output array, the plain matrix product of the arrays it found plus the bias row (rectified in the
  second region): `Region0` … `Region3`, over `LibPlainDot` (a rows-by-columns contraction read at an index). The
  host operations between the regions only reshape, so the result buffer after the run is one function of the eight
  arguments (`KernelResult`, over the run of the generated frame with the result buffer named, `RunNamed`). The
  reference's composed term is the same function stage by stage (`RefResult`, over `LibHostRows`). No law beyond
  commutative-monoid facts of the extended reals is used, so the precondition is never opened.

  The three frames are the generated ones (the reference's is its generated run with the result dropped), and the
  idealization rewrote nothing, so `preserves` is trivial.
-/
import proofs.«158433_j21706764714291_1_alg».proof.Defs
import proofs.«158433_j21706764714291_1_alg».proof.Proof.Gen.Kernel
import proofs.«158433_j21706764714291_1_alg».proof.Proof.Gen.Kernel.Skeleton
import proofs.«158433_j21706764714291_1_alg».proof.Proof.Gen.Kernel.Launch
import proofs.«158433_j21706764714291_1_alg».proof.Proof.Gen.Kernel.Points
import proofs.«158433_j21706764714291_1_alg».proof.Proof.Gen.Kernel.Frame
import proofs.«158433_j21706764714291_1_alg».proof.Proof.Gen.KernelIdeal
import proofs.«158433_j21706764714291_1_alg».proof.Proof.Gen.KernelIdeal.Skeleton
import proofs.«158433_j21706764714291_1_alg».proof.Proof.Gen.KernelIdeal.Launch
import proofs.«158433_j21706764714291_1_alg».proof.Proof.Gen.KernelIdeal.Points
import proofs.«158433_j21706764714291_1_alg».proof.Proof.Gen.KernelIdeal.Frame
import proofs.«158433_j21706764714291_1_alg».proof.Proof.Gen.ReferenceIdeal
import proofs.«158433_j21706764714291_1_alg».proof.Proof.Gen.ReferenceIdeal.Run
import proofs.«158433_j21706764714291_1_alg».proof.Proof.Gen.Pre_finite_inputs
import proofs.«158433_j21706764714291_1_alg».proof.Proof.KernelResult
import proofs.«158433_j21706764714291_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result at `head (layer2 …)` of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h1, h2, h3, h4, h5, h6, h7]
  exact Cert.RefResult.reference_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
